-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x400x21 : Shape := ⟨3, ![4096, 400, 21]⟩
abbrev S512x21 : Shape := ⟨2, ![512, 21]⟩
abbrev S512x21x512x21 : Shape := ⟨4, ![512, 21, 512, 21]⟩
abbrev S_ : Shape := ⟨0, ![]⟩

class Facts : Prop where
  bcast_S_S4096x400x21 : S_.BroadcastsInDim S4096x400x21 (![] : Fin 0 → Fin S4096x400x21.rank)
  reducesTo_S4096x400x21_S_d0_1_2 : S4096x400x21.ReducesTo [0, 1, 2] S_
  h_S_ : 0 < S_.numel
  bcast_S_S512x21 : S_.BroadcastsInDim S512x21 (![] : Fin 0 → Fin S512x21.rank)
  reducesTo_S512x21_S_d0_1 : S512x21.ReducesTo [0, 1] S_
  bcast_S_S512x21x512x21 : S_.BroadcastsInDim S512x21x512x21 (![] : Fin 0 → Fin S512x21x512x21.rank)
  reducesTo_S512x21x512x21_S_d0_1_2_3 : S512x21x512x21.ReducesTo [0, 1, 2, 3] S_

variable [Facts]

def fn {F : FTy → Type} [FloatOps F] (main_arg0 : FVec F S4096x400x21 .f32) (main_arg1 : FVec F S512x21 .f32) (main_arg2 : FVec F S512x21x512x21 .f32) : IVec S_ 1 :=
  let main_v0 : FVec F S4096x400x21 .f32 := Host.absf main_arg0
  let main_cst : FVec F S_ .f32 := constant S_ .f32 0x7F800000#32
  let main_v1 : FVec F S4096x400x21 .f32 := broadcastInDim S4096x400x21 ![] bcast_S_S4096x400x21 main_cst
  let main_v2 : IVec S4096x400x21 1 := cmpf .olt main_v0 main_v1
  let main_c : IVec S_ 1 := constantI S_ 1 1#1
  let main_v3 : IVec S_ 1 := (fun x v => Host.reduce IntOp.andi x v reducesTo_S4096x400x21_S_d0_1_2 h_S_) main_v2 main_c
  let main_v4 : FVec F S512x21 .f32 := Host.absf main_arg1
  let main_cst_0 : FVec F S_ .f32 := constant S_ .f32 0x7F800000#32
  let main_v5 : FVec F S512x21 .f32 := broadcastInDim S512x21 ![] bcast_S_S512x21 main_cst_0
  let main_v6 : IVec S512x21 1 := cmpf .olt main_v4 main_v5
  let main_c_1 : IVec S_ 1 := constantI S_ 1 1#1
  let main_v7 : IVec S_ 1 := (fun x v => Host.reduce IntOp.andi x v reducesTo_S512x21_S_d0_1 h_S_) main_v6 main_c_1
  let main_v8 : IVec S_ 1 := andi main_v3 main_v7
  let main_v9 : FVec F S512x21x512x21 .f32 := Host.absf main_arg2
  let main_cst_2 : FVec F S_ .f32 := constant S_ .f32 0x7F800000#32
  let main_v10 : FVec F S512x21x512x21 .f32 := broadcastInDim S512x21x512x21 ![] bcast_S_S512x21x512x21 main_cst_2
  let main_v11 : IVec S512x21x512x21 1 := cmpf .olt main_v9 main_v10
  let main_c_3 : IVec S_ 1 := constantI S_ 1 1#1
  let main_v12 : IVec S_ 1 := (fun x v => Host.reduce IntOp.andi x v reducesTo_S512x21x512x21_S_d0_1_2_3 h_S_) main_v11 main_c_3
  let main_v13 : IVec S_ 1 := andi main_v8 main_v12
  main_v13
-- ==== Kernel.lean ====
abbrev S4096x400x21 : Shape := ⟨3, ![4096, 400, 21]⟩
abbrev S512x21 : Shape := ⟨2, ![512, 21]⟩
abbrev S512x21x512x21 : Shape := ⟨4, ![512, 21, 512, 21]⟩
abbrev S1x21x400x21 : Shape := ⟨4, ![1, 21, 400, 21]⟩
abbrev S21x400x21 : Shape := ⟨3, ![21, 400, 21]⟩
abbrev S21x8400 : Shape := ⟨2, ![21, 8400]⟩
abbrev S8400x21 : Shape := ⟨2, ![8400, 21]⟩
abbrev S1x21 : Shape := ⟨2, ![1, 21]⟩
abbrev S21 : Shape := ⟨1, ![21]⟩
abbrev S4096x8400 : Shape := ⟨2, ![4096, 8400]⟩
abbrev S4096x21 : Shape := ⟨2, ![4096, 21]⟩
abbrev S256x8400 : Shape := ⟨2, ![256, 8400]⟩
abbrev S256x21 : Shape := ⟨2, ![256, 21]⟩
abbrev S256 : Shape := ⟨1, ![256]⟩
abbrev S256x1 : Shape := ⟨2, ![256, 1]⟩

abbrev nBuf : Space → Nat
  | .hbm => 13
  | .vmem => 6
  | .smem => 0
  | _ => 0

abbrev bufTy : (tb : Table) → Fin (tcTables nBuf tb) → BufTy
  | .hbm, ⟨0, _⟩ => ⟨S4096x400x21, .f32⟩
  | .hbm, ⟨1, _⟩ => ⟨S512x21, .f32⟩
  | .hbm, ⟨2, _⟩ => ⟨S512x21x512x21, .f32⟩
  | .hbm, ⟨3, _⟩ => ⟨S1x21x400x21, .f32⟩
  | .hbm, ⟨4, _⟩ => ⟨S21x400x21, .f32⟩
  | .hbm, ⟨5, _⟩ => ⟨S21x8400, .f32⟩
  | .hbm, ⟨6, _⟩ => ⟨S8400x21, .f32⟩
  | .hbm, ⟨7, _⟩ => ⟨S8400x21, .bf16⟩
  | .hbm, ⟨8, _⟩ => ⟨S1x21, .f32⟩
  | .hbm, ⟨9, _⟩ => ⟨S21, .f32⟩
  | .hbm, ⟨10, _⟩ => ⟨S1x21, .f32⟩
  | .hbm, ⟨11, _⟩ => ⟨S4096x8400, .f32⟩
  | .hbm, ⟨12, _⟩ => ⟨S4096x21, .f32⟩
  | .local _ .vmem, ⟨0, _⟩ => ⟨S256x8400, .f32⟩
  | .local _ .vmem, ⟨1, _⟩ => ⟨S256x8400, .f32⟩
  | .local _ .vmem, ⟨2, _⟩ => ⟨S8400x21, .bf16⟩
  | .local _ .vmem, ⟨3, _⟩ => ⟨S1x21, .f32⟩
  | .local _ .vmem, ⟨4, _⟩ => ⟨S256x21, .f32⟩
  | .local _ .vmem, ⟨5, _⟩ => ⟨S256x21, .f32⟩
  | _, _ => ⟨S4096x400x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8400x21 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x21 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x21 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S512x21x512x21_S1x21x400x21_400_0_0_0 : S512x21x512x21.Slices ![400, 0, 0, 0] S1x21x400x21
  shapeCasts_S1x21x400x21_S21x400x21 : S1x21x400x21.ShapeCasts S21x400x21
  shapeCasts_S21x400x21_S21x8400 : S21x400x21.ShapeCasts S21x8400
  transposes_S21x8400_S8400x21_1_0 : S21x8400.Transposes [1, 0] S8400x21
  bitsLt_bf16_f32 : FTy.bits .bf16 < FTy.bits .f32
  slices_S512x21_S1x21_400_0 : S512x21.Slices ![400, 0] S1x21
  shapeCasts_S1x21_S21 : S1x21.ShapeCasts S21
  shapeCasts_S21_S1x21 : S21.ShapeCasts S1x21
  shapeCasts_S4096x400x21_S4096x8400 : S4096x400x21.ShapeCasts S4096x8400
  inb_S256x8400_S256x8400_0_0 : ∀ a, (![0, 0] : Fin 2 → Nat) a + S256x8400.size a ≤ S256x8400.size a
  h_S256x8400 : 0 < S256x8400.numel
  shapeCasts_S256x8400_S256x8400 : S256x8400.ShapeCasts S256x8400
  inb_S8400x21_S8400x21_0_0 : ∀ a, (![0, 0] : Fin 2 → Nat) a + S8400x21.size a ≤ S8400x21.size a
  h_S8400x21 : 0 < S8400x21.numel
  shapeCasts_S8400x21_S8400x21 : S8400x21.ShapeCasts S8400x21
  inb_S1x21_S1x21_0_0 : ∀ a, (![0, 0] : Fin 2 → Nat) a + S1x21.size a ≤ S1x21.size a
  h_S1x21 : 0 < S1x21.numel
  shapeCasts_S1x21_S1x21 : S1x21.ShapeCasts S1x21
  broadcasts_S1x21_S256x21 : S1x21.Broadcasts S256x21
  reduces_S256x21_S256 : S256x21.Reduces [1] S256
  shapeCasts_S256_S256x1 : S256.ShapeCasts S256x1
  broadcasts_S256x1_S256x21 : S256x1.Broadcasts S256x21
  inb_S256x21_S256x21_0_0 : ∀ a, (![0, 0] : Fin 2 → Nat) a + S256x21.size a ≤ S256x21.size a
  h_S256x21 : 0 < S256x21.numel
  dot_S256x8400_S8400x21_S256x21_1_0_0_1_n_n_wf : DotDims.WF S256x8400 S8400x21 S256x21 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8400.size a ≤ S4096x8400.size a
  hwx0_0 : ∀ i : grid0.Coords, EltTy.bits .f32 = 32 ∨ (Rect.block (s := S4096x8400) S256x8400.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8400x21.size a ≤ S8400x21.size a
  hwx0_1 : ∀ i : grid0.Coords, EltTy.bits .bf16 = 32 ∨ (Rect.block (s := S8400x21) S8400x21.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x21.size a ≤ S1x21.size a
  hwx0_2 : ∀ i : grid0.Coords, EltTy.bits .f32 = 32 ∨ (Rect.block (s := S1x21) S1x21.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x21.size a ≤ S4096x21.size a
  hwx0_3 : ∀ i : grid0.Coords, EltTy.bits .f32 = 32 ∨ (Rect.block (s := S4096x21) S256x21.size (cc0_transform_3 i) (hinb0_3 i)).WholeWords (EltTy.packing .f32)

variable [Facts₀]

def dot_S256x8400_S8400x21_S256x21_1_0_0_1_n_n : DotDims S256x8400 S8400x21 S256x21 where
  lhsContracting := [1]
  rhsContracting := [0]
  lhsNonContracting := [0]
  rhsNonContracting := [1]
  lhsBatch := []
  rhsBatch := []
  wf := dot_S256x8400_S8400x21_S256x21_1_0_0_1_n_n_wf

abbrev win0_0 : Pipeline.Window sig grid0 :=
  Pipeline.Window.ofSpec (Memref.whole main_v8) S256x8400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8400x21.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x21.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x21.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x400x21 : Shape := ⟨3, ![4096, 400, 21]⟩
abbrev S512x21 : Shape := ⟨2, ![512, 21]⟩
abbrev S512x21x512x21 : Shape := ⟨4, ![512, 21, 512, 21]⟩
abbrev S1x21x400x21 : Shape := ⟨4, ![1, 21, 400, 21]⟩
abbrev S21x400x21 : Shape := ⟨3, ![21, 400, 21]⟩
abbrev S21x8400 : Shape := ⟨2, ![21, 8400]⟩
abbrev S1x21 : Shape := ⟨2, ![1, 21]⟩
abbrev S21 : Shape := ⟨1, ![21]⟩
abbrev S4096x8400 : Shape := ⟨2, ![4096, 8400]⟩
abbrev S4096x21 : Shape := ⟨2, ![4096, 21]⟩
abbrev S_ : Shape := ⟨0, ![]⟩
abbrev S4096 : Shape := ⟨1, ![4096]⟩
abbrev S4096x1 : Shape := ⟨2, ![4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S4096x400x21, .f32⟩
  | .hbm, ⟨1, _⟩ => ⟨S512x21, .f32⟩
  | .hbm, ⟨2, _⟩ => ⟨S512x21x512x21, .f32⟩
  | .hbm, ⟨3, _⟩ => ⟨S1x21x400x21, .f32⟩
  | .hbm, ⟨4, _⟩ => ⟨S21x400x21, .f32⟩
  | .hbm, ⟨5, _⟩ => ⟨S21x8400, .f32⟩
  | .hbm, ⟨6, _⟩ => ⟨S1x21, .f32⟩
  | .hbm, ⟨7, _⟩ => ⟨S21, .f32⟩
  | .hbm, ⟨8, _⟩ => ⟨S4096x8400, .f32⟩
  | .hbm, ⟨9, _⟩ => ⟨S4096x21, .f32⟩
  | .hbm, ⟨10, _⟩ => ⟨S1x21, .f32⟩
  | .hbm, ⟨11, _⟩ => ⟨S4096x21, .f32⟩
  | .hbm, ⟨12, _⟩ => ⟨S4096x21, .f32⟩
  | .hbm, ⟨13, _⟩ => ⟨S_, .f32⟩
  | .hbm, ⟨14, _⟩ => ⟨S4096x21, .f32⟩
  | .hbm, ⟨15, _⟩ => ⟨S4096x21, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096x1, .f32⟩
  | .hbm, ⟨22, _⟩ => ⟨S4096x21, .f32⟩
  | .hbm, ⟨23, _⟩ => ⟨S4096x21, .f32⟩
  | .hbm, ⟨24, _⟩ => ⟨S4096x21, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S4096x21, .f32⟩
  | .hbm, ⟨29, _⟩ => ⟨S4096x21, .f32⟩
  | _, _ => ⟨S4096x400x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  slices_S512x21x512x21_S1x21x400x21_400_0_0_0 : S512x21x512x21.Slices ![400, 0, 0, 0] S1x21x400x21
  shapeCasts_S1x21x400x21_S21x400x21 : S1x21x400x21.ShapeCasts S21x400x21
  shapeCasts_S21x400x21_S21x8400 : S21x400x21.ShapeCasts S21x8400
  slices_S512x21_S1x21_400_0 : S512x21.Slices ![400, 0] S1x21
  shapeCasts_S1x21_S21 : S1x21.ShapeCasts S21
  shapeCasts_S4096x400x21_S4096x8400 : S4096x400x21.ShapeCasts S4096x8400
  bcast_S21_S1x21_1 : S21.BroadcastsInDim S1x21 (![1] : Fin 1 → Fin S1x21.rank)
  bcast_S1x21_S4096x21_0_1 : S1x21.BroadcastsInDim S4096x21 (![0, 1] : Fin 2 → Fin S4096x21.rank)
  bcast_S_S4096x21 : S_.BroadcastsInDim S4096x21 (![] : Fin 0 → Fin S4096x21.rank)
  reducesTo_S4096x21_S4096_d1 : S4096x21.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x21_0_1 : S4096x1.BroadcastsInDim S4096x21 (![0, 1] : Fin 2 → Fin S4096x21.rank)
  dot_S4096x8400_S21x8400_S4096x21_1_1_0_0_n_n_wf : DotDims.WF S4096x8400 S21x8400 S4096x21 [1] [1] [0] [0] [] []

variable [Facts₀]

def dot_S4096x8400_S21x8400_S4096x21_1_1_0_0_n_n : DotDims S4096x8400 S21x8400 S4096x21 where
  lhsContracting := [1]
  rhsContracting := [1]
  lhsNonContracting := [0]
  rhsNonContracting := [0]
  lhsBatch := []
  rhsBatch := []
  wf := dot_S4096x8400_S21x8400_S4096x21_1_1_0_0_n_n_wf

class Facts : Prop extends Facts₀ where

variable [Facts]
-- ==== Proof.SiteSoftmax.lean ====
/-
  The conditional distribution of one site of an autoregressive Potts model, as one function of arrays.

  For sequence `n` and symbol `o` the logit is the site's field `hv o` plus the couplings `Jr o k` summed against the
  flattened sequence `Xf n k` over the `8400 = 400 · 21` (earlier site, symbol) pairs, scaled by the inverse
  temperature; the distribution over the 21 symbols is the softmax of the row of logits, in its shifted form: each
  logit less the row's maximum, exponentiated, over the sum of those exponentials. On the extended reals the only laws
  between two spellings of this function that differ in the order of the field and the coupling sum, and in the side
  on which the inverse temperature multiplies, are commutativity of `+` and of `·`; neither needs finiteness.
-/
import Idealize.ShloMosaic.PureOps.Ideal
import Idealize.ShloMosaic.Lib.ValueIdx

noncomputable section

namespace Cert.SiteSoftmax

open Idealize.ShloMosaic Idealize.ShloMosaic.ValueIdx

/-- The pattern of `-∞`: where a row's maximum starts. -/
abbrev negInf : EReal := Ideal.ofBits .f32 0xFF800000#32
/-- The pattern of the inverse temperature, `1.0`. It is never evaluated: both programs multiply by the same word. -/
abbrev beta : EReal := Ideal.ofBits .f32 0x3F800000#32

/-- The row's maximum as both programs take it: the fold of `max` from `-∞` over the 21 logits, once more against `-∞`. -/
def rowMax (z : Fin 21 → EReal) : EReal := max negInf (Finset.univ.fold max negInf z)

/-- Softmax of a row of 21 logits, shifted by the row's maximum. -/
def rowSoftmax (z : Fin 21 → EReal) (o : Fin 21) : EReal :=
  Ideal.div (Ideal.exp (z o - rowMax z)) (∑ o' : Fin 21, Ideal.exp (z o' - rowMax z))

/-- The scaled logit of sequence `n` and symbol `o`. -/
def logit (Xf : (⟨2, ![4096, 8400]⟩ : Shape).Idx → EReal) (Jr : (⟨2, ![21, 8400]⟩ : Shape).Idx → EReal)
    (hv : (⟨1, ![21]⟩ : Shape).Idx → EReal) (n : Fin 4096) (o : Fin 21) : EReal :=
  beta * (hv (ix1 o) + ∑ k : Fin 8400, Xf (ix2 n k) * Jr (ix2 o k))

/-- The site's conditional distribution for every sequence: row `n` is the softmax of sequence `n`'s logits. -/
def siteProb (Xf : (⟨2, ![4096, 8400]⟩ : Shape).Idx → EReal) (Jr : (⟨2, ![21, 8400]⟩ : Shape).Idx → EReal)
    (hv : (⟨1, ![21]⟩ : Shape).Idx → EReal) : (⟨2, ![4096, 21]⟩ : Shape).Idx → EReal :=
  fun i => rowSoftmax (logit Xf Jr hv (i 0)) (i 1)

/-- Row `n`, symbol `o` of the distribution. -/
theorem siteProb_apply (Xf : (⟨2, ![4096, 8400]⟩ : Shape).Idx → EReal) (Jr : (⟨2, ![21, 8400]⟩ : Shape).Idx → EReal)
    (hv : (⟨1, ![21]⟩ : Shape).Idx → EReal) (n : Fin 4096) (o : Fin 21) :
    siteProb Xf Jr hv (ix2 n o) = rowSoftmax (logit Xf Jr hv n) o := rfl

/-- The other spelling of a logit — the coupling sum first, the field added to it, the inverse temperature on the right —
    is the same extended real: `+` and `·` commute. -/
theorem logit_of_sum_add_mul (Xf : (⟨2, ![4096, 8400]⟩ : Shape).Idx → EReal) (Jr : (⟨2, ![21, 8400]⟩ : Shape).Idx → EReal)
    (hv : (⟨1, ![21]⟩ : Shape).Idx → EReal) (n : Fin 4096) (o : Fin 21) :
    ((∑ k : Fin 8400, Xf (ix2 n k) * Jr (ix2 o k)) + hv (ix1 o)) * beta = logit Xf Jr hv n o := by
  unfold logit
  rw [mul_comm, add_comm]

end Cert.SiteSoftmax

end
-- ==== Proof.LibKeepdims.lean ====
/-
  Column forms of a kept unit axis, read at an index: a vector `[a]` viewed as the column `[a, 1]` reads its entry at
  the row, and a column `[a, 1]` broadcast along its unit axis to `[a, b]` reads, at `(p, c)`, the column's entry
  in row `p`. Together with the row forms (`[a]` as `[1, a]`, and `[1, b]` over `[a, b]`) these read a sum that
  keeps its reduced axis and is then broadcast against a two-dimensional tile.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A vector `[a]` cast to the column `[a, 1]` reads, at `(i, u)`, the vector at `i`: both have row-major position `i`,
    the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is
    kept (or is `0` already when `a = 1`), the unit axis reads its only coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.KernelTile.lean ====
/-
  What one grid point of the kernel leaves in its output tile, read index by index.

  The tile's 256 rows are sequences and its 21 columns symbols. At `(r, o)` the body contracts the sequences' block
  with the transposed coupling block over the 8400 pairs (a change of float format is the identity on the extended
  reals, and the accumulator is the zero splat), adds the field's one row, multiplies by the inverse temperature, and
  takes the softmax along the symbols: the row's maximum from `-∞`, kept as a column and broadcast back; the shifted
  exponentials; their sum along the symbols, again kept as a column and broadcast; the quotient.
-/
import proofs.«164198_j74062416053356_1_alg».proof.Proof.Gen.KernelIdeal.Skeleton
import proofs.«164198_j74062416053356_1_alg».proof.Proof.SiteSoftmax
import proofs.«164198_j74062416053356_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.TileValue

open Cert.KernelIdeal Cert.KernelIdeal.Gen Idealize.ShloMosaic Idealize.ShloMosaic.ValueIdx
open Cert.SiteSoftmax Cert.LibKeepdims

/-! ## The softmax along the symbols of a tile of logits -/

section Softmax

variable (z : FVec Ideal S256x21 .f32) (hr : S256x21.Reduces [1] S256) (hφ : FKind.Formats .f32)
  (hm : (0xFF800000#32 : BitVec 32) = FKind.maximumf.neutral .f32 hφ) (ha : (0x00000000#32 : BitVec 32) = FKind.add.neutral .f32 hφ)
  (hc : S256.ShapeCasts S256x1) (hb : S256x1.Broadcasts S256x21)

/-- The source index over row `r` with symbol `k` inserted on the reduced axis is `(r, k)`. -/
theorem lift_row (r : Fin 256) (k : Fin 21) : hr.lift (ix1 r) k = ix2 r k :=
  funext fun a => Fin.ext (by match a with | ⟨0, _⟩ => rfl | ⟨1, _⟩ => rfl)

/-- Row `r`'s maximum as the body takes it: the lane maximum from `-∞`, once more against the `-∞` splat. -/
theorem tile_rowmax (r : Fin 256) :
    maximumf (broadcast S256 (Scalar.ofBits .f32 0xFF800000#32)) (multiReduction .maximumf [1] S256 z 0xFF800000#32 hr hφ hm) (ix1 r)
      = rowMax fun o => z (ix2 r o) := by
  rw [maximumf_apply, broadcast_apply, Ideal.multiReduction_maximumf_single]
  unfold rowMax
  refine congrArg (max negInf) ?_
  exact Finset.fold_congr fun k _ => congrArg z (lift_row hr r k)

/-- The tile of shifted exponentials. -/
def tileExp : FVec Ideal S256x21 .f32 :=
  exp (subf z (broadcastTo S256x21 (shapeCast S256x1
    (maximumf (broadcast S256 (Scalar.ofBits .f32 0xFF800000#32)) (multiReduction .maximumf [1] S256 z 0xFF800000#32 hr hφ hm)) hc) hb))

theorem tileExp_apply (r : Fin 256) (o : Fin 21) :
    tileExp z hr hφ hm hc hb (ix2 r o) = Ideal.exp (z (ix2 r o) - rowMax fun o' => z (ix2 r o')) := by
  unfold tileExp
  show Ideal.exp (z (ix2 r o) - broadcastTo S256x21 (shapeCast S256x1 _ hc) hb (ix2 r o)) = _
  rw [broadcastTo_a1_ab_apply, shapeCast_a_a1_apply, tile_rowmax]

/-- The tile of quotients: each shifted exponential over its row's sum. -/
def tileSoftmax : FVec Ideal S256x21 .f32 :=
  divf (tileExp z hr hφ hm hc hb) (broadcastTo S256x21 (shapeCast S256x1
    (multiReduction .add [1] S256 (tileExp z hr hφ hm hc hb) 0x00000000#32 hr hφ ha) hc) hb)

theorem tileSoftmax_apply (r : Fin 256) (o : Fin 21) :
    tileSoftmax z hr hφ hm ha hc hb (ix2 r o) = rowSoftmax (fun o' => z (ix2 r o')) o := by
  unfold tileSoftmax rowSoftmax
  rw [divf_apply, broadcastTo_a1_ab_apply, shapeCast_a_a1_apply, Ideal.multiReduction_add_single, tileExp_apply]
  refine congrArg (Ideal.div _) (Finset.sum_congr rfl fun k _ => ?_)
  exact (congrArg (tileExp z hr hφ hm hc hb) (lift_row hr r k)).trans (tileExp_apply z hr hφ hm hc hb r k)

end Softmax

/-! ## The tile of scaled logits -/

/-- The contraction's operand indices, axis by axis: the left operand is read at (row, pair), the right at (pair, symbol). -/
theorem lhs_axis0 (i : S256x21.Idx) (q : dot_S256x8400_S8400x21_S256x21_1_0_0_1_n_n.contr.Idx) :
    (dot_S256x8400_S8400x21_S256x21_1_0_0_1_n_n.lhsIdx i q 0).val = (i 0).val := by
  unfold DotDims.lhsIdx
  rw [dif_neg (show ¬(0 : Fin S256x8400.rank) ∈ dot_S256x8400_S8400x21_S256x21_1_0_0_1_n_n.lhsBatch by decide), dif_pos (show (0 : Fin S256x8400.rank) ∈ dot_S256x8400_S8400x21_S256x21_1_0_0_1_n_n.lhsNonContracting by decide)]
  rfl
theorem lhs_axis1 (i : S256x21.Idx) (q : dot_S256x8400_S8400x21_S256x21_1_0_0_1_n_n.contr.Idx) :
    (dot_S256x8400_S8400x21_S256x21_1_0_0_1_n_n.lhsIdx i q 1).val = (q ⟨0, by decide⟩).val :=
  dot_S256x8400_S8400x21_S256x21_1_0_0_1_n_n.lhsIdx_val_of_single rfl i q
theorem rhs_axis0 (i : S256x21.Idx) (q : dot_S256x8400_S8400x21_S256x21_1_0_0_1_n_n.contr.Idx) :
    (dot_S256x8400_S8400x21_S256x21_1_0_0_1_n_n.rhsIdx i q 0).val = (q ⟨0, by decide⟩).val :=
  dot_S256x8400_S8400x21_S256x21_1_0_0_1_n_n.rhsIdx_val_of_single rfl i q
theorem rhs_axis1 (i : S256x21.Idx) (q : dot_S256x8400_S8400x21_S256x21_1_0_0_1_n_n.contr.Idx) :
    (dot_S256x8400_S8400x21_S256x21_1_0_0_1_n_n.rhsIdx i q 1).val = (i 1).val := by
  unfold DotDims.rhsIdx
  rw [dif_neg (show ¬(1 : Fin S8400x21.rank) ∈ dot_S256x8400_S8400x21_S256x21_1_0_0_1_n_n.rhsBatch by decide), dif_pos (show (1 : Fin S8400x21.rank) ∈ dot_S256x8400_S8400x21_S256x21_1_0_0_1_n_n.rhsNonContracting by decide)]
  rfl

/-- The matrix product into the zero splat at `(r, o)`: the sum over the 8400 pairs of sequence entry times coupling. -/
theorem tile_contract (a : FVec Ideal S256x8400 .bf16) (b : FVec Ideal S8400x21 .bf16) (r : Fin 256) (o : Fin 21) :
    matmul dot_S256x8400_S8400x21_S256x21_1_0_0_1_n_n none a b (constant S256x21 .f32 0x00000000#32) (ix2 r o)
      = ∑ k : Fin 8400, a (ix2 r k) * b (ix2 k o) := by
  simp only [matmul]
  rw [Ideal.matmul_constant_zero_apply, ← Equiv.sum_comp (contrEquiv1 dot_S256x8400_S8400x21_S256x21_1_0_0_1_n_n 8400 rfl rfl).symm]
  refine Finset.sum_congr rfl fun k _ => ?_
  have hk := contrEquiv1_symm_val dot_S256x8400_S8400x21_S256x21_1_0_0_1_n_n 8400 rfl rfl k
  have el : dot_S256x8400_S8400x21_S256x21_1_0_0_1_n_n.lhsIdx (ix2 r o) ((contrEquiv1 dot_S256x8400_S8400x21_S256x21_1_0_0_1_n_n 8400 rfl rfl).symm k) = ix2 r k := funext fun c => Fin.ext (by
    match c with
    | ⟨0, _⟩ => exact lhs_axis0 _ _
    | ⟨1, _⟩ => exact (lhs_axis1 _ _).trans hk)
  have er : dot_S256x8400_S8400x21_S256x21_1_0_0_1_n_n.rhsIdx (ix2 r o) ((contrEquiv1 dot_S256x8400_S8400x21_S256x21_1_0_0_1_n_n 8400 rfl rfl).symm k) = ix2 k o := funext fun c => Fin.ext (by
    match c with
    | ⟨0, _⟩ => exact (rhs_axis0 _ _).trans hk
    | ⟨1, _⟩ => exact rhs_axis1 _ _)
  rw [el, er]

/-- The tile of scaled logits at `(r, o)`: (the contraction plus the field's row) times the inverse temperature. -/
theorem tile_logit (x0 : FVec Ideal S256x8400 .f32) (x1 : FVec Ideal S8400x21 .bf16) (x2 : FVec Ideal S1x21 .f32)
    (hc0 : S256x8400.ShapeCasts S256x8400) (hc1 : S8400x21.ShapeCasts S8400x21) (hc2 : S1x21.ShapeCasts S1x21)
    (hlt : FTy.bits .bf16 < FTy.bits .f32) (hb : S1x21.Broadcasts S256x21) (r : Fin 256) (o : Fin 21) :
    mulf (F := Ideal) (addf (F := Ideal) (matmul (F := Ideal) dot_S256x8400_S8400x21_S256x21_1_0_0_1_n_n none
        (truncf (F := Ideal) .bf16 (shapeCast S256x8400 x0 hc0) hlt) (shapeCast S8400x21 x1 hc1)
        (constant S256x21 .f32 0x00000000#32)) (broadcastTo S256x21 (shapeCast S1x21 x2 hc2) hb))
      (broadcast S256x21 (Scalar.ofBits (F := Ideal) .f32 0x3F800000#32)) (ix2 r o)
      = ((∑ k : Fin 8400, x0 (ix2 r k) * x1 (ix2 k o)) + x2 (ix2 (0 : Fin 1) o)) * beta := by
  rw [mulf_apply, addf_apply, broadcast_apply, tile_contract, broadcastTo_1b_ab_apply, shapeCast_self, shapeCast_self, shapeCast_self]
  rfl

/-! ## The body's payload -/

/-- The payload the body stores, at `(r, o)`: the softmax along the symbols of row `r`'s scaled logits. -/
theorem payload_apply (x0 : Vec Ideal S256x8400 .f32) (x1 : Vec Ideal S8400x21 .bf16) (x2 : Vec Ideal S1x21 .f32) (r : Fin 256) (o : Fin 21) :
    k0_pay1 (F := Ideal) x0 x1 x2 (ix2 r o)
      = rowSoftmax (fun o' => ((∑ k : Fin 8400, x0 (ix2 r k) * x1 (ix2 k o')) + x2 (ix2 (0 : Fin 1) o')) * beta) o := by
  unfold k0_pay1
  refine (tileSoftmax_apply _ reduces_S256x21_S256 (.inl rfl) rfl rfl shapeCasts_S256_S256x1 broadcasts_S256x1_S256x21 r o).trans ?_
  refine congrArg (fun f => rowSoftmax f o) (funext fun o' => ?_)
  exact tile_logit x0 x1 x2 _ _ _ _ _ r o'

end Cert.KernelIdeal.TileValue

end
-- ==== Proof.KernelArray.lean ====
/-
  From the tiles to the array: what the kernel's result array holds after the run.

  Grid point `t` of the 16 stages rows `256 t … 256 t + 255` of the flattened sequences, the whole transposed coupling
  block and the field's one row, and writes back rows `256 t … 256 t + 255` of the result. A tile's row `r` therefore
  reads sequence `256 t + r`, and the 16 tiles cover the 4096 rows (row `n` lies in tile `n / 256`). So every entry
  `(n, o)` of the result is the softmax along the symbols of sequence `n`'s scaled logits. The arrays the region finds
  are the host's re-laid arguments: the sequences flattened; site 400's couplings cut out, flattened, transposed and
  changed in format (the identity here); site 400's field as one row. Reading the transposed couplings at (pair, symbol)
  as the couplings at (symbol, pair), and the field's row as the field's vector, turns the tiles' spelling into
  `SiteSoftmax.siteProb`.
-/
import proofs.«164198_j74062416053356_1_alg».proof.Proof.Gen.KernelIdeal.Value
import proofs.«164198_j74062416053356_1_alg».proof.Proof.KernelTile
import proofs.«164198_j74062416053356_1_alg».proof.Proof.SiteSoftmax
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.SiteSoftmax
open Idealize.ShloMosaic.Pipeline (Dat)

variable (m : (ℓ : Loc nD τ sig) → Buf (Elt Ideal) ℓ) (ρ : Dev nD → PrngReg)

/-! ## One tile entry from the arrays -/

/-- Every entry of the result in the tiles' spelling: over the flattened sequences `Xf`, the transposed couplings `JT`
    and the field's one row `hrow`. -/
def tiled (Xf : FVec Ideal S4096x8400 .f32) (JT : FVec Ideal S8400x21 .bf16) (hrow : FVec Ideal S1x21 .f32) : S4096x21.Idx → EReal :=
  fun i => rowSoftmax (fun o' => ((∑ k : Fin 8400, Xf (ix2 (i 0) k) * JT (ix2 k o')) + hrow (ix2 (0 : Fin 1) o')) * beta) (i 1)

/-- A tile whose blocks are the arrays' — its row `r` the sequences' row `i 0`, its coupling block and field row the whole
    arrays — stores at `(r, o)` the entry `i` of `tiled`, when `o` is `i`'s symbol. -/
theorem payload_of_arrays (Xf : FVec Ideal S4096x8400 .f32) (JT : FVec Ideal S8400x21 .bf16) (hrow : FVec Ideal S1x21 .f32)
    (b0 : Vec Ideal S256x8400 .f32) (b1 : Vec Ideal S8400x21 .bf16) (b2 : Vec Ideal S1x21 .f32)
    (i : S4096x21.Idx) (r : Fin 256) (o : Fin 21)
    (h0 : ∀ k : Fin 8400, b0 (ix2 r k) = Xf (ix2 (i 0) k)) (h1 : ∀ (k : Fin 8400) (o' : Fin 21), b1 (ix2 k o') = JT (ix2 k o'))
    (h2 : ∀ o' : Fin 21, b2 (ix2 (0 : Fin 1) o') = hrow (ix2 (0 : Fin 1) o')) (ho : o = i 1) :
    k0_pay1 (F := Ideal) b0 b1 b2 (ix2 r o) = tiled Xf JT hrow i := by
  rw [TileValue.payload_apply]
  unfold tiled
  subst ho
  simp only [h0, h1, h2]

/-! ## The windows' blocks read off their arrays -/

theorem hz : (![0, 0] : Fin 2 → Nat) = fun _ => 0 := funext fun a => by fin_cases a <;> rfl

/-- The printed index maps over the grid: the sequences' and the result's windows move with the point along the rows,
    the couplings' and the field's stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `r` of the sequences' block at point `t` is row `256 t + r` of the flattened sequences. -/
theorem seq_block (c : Dev nD) (t : Fin cfg0.N) (r : Fin 256) (k : Fin 8400) (n : Fin 4096) (hn : n.val = t.val * 256 + r.val) :
    (iblk m c 0 t : Vec Ideal S256x8400 .f32) (ix2 r k) = (V m c main_v8 : S4096x8400.Idx → EReal) (ix2 n k) := by
  obtain ⟨e0, e1, -⟩ := idx_facts t
  show V m c main_v8 (((cfg0.win 0).blk t).view.emb (ix2 r k)) = V m c main_v8 (ix2 n k)
  refine congrArg _ (funext fun a => Fin.ext ?_)
  match a with
  | ⟨0, _⟩ => show win0_0.index t (0 : Fin 2) * 256 + 1 * r.val = n.val; omega
  | ⟨1, _⟩ => show win0_0.index t (1 : Fin 2) * 8400 + 1 * k.val = k.val; omega

/-- The couplings' block at every point is the whole transposed array. -/
theorem coup_block (c : Dev nD) (t : Fin cfg0.N) (k : Fin 8400) (o : Fin 21) :
    (iblk m c 1 t : Vec Ideal S8400x21 .bf16) (ix2 k o) = (V m c main_v4 : S8400x21.Idx → EReal) (ix2 k o) := by
  obtain ⟨-, -, e2, e3, -⟩ := idx_facts t
  show V m c main_v4 (((cfg0.win 1).blk t).view.emb (ix2 k o)) = V m c main_v4 (ix2 k o)
  refine congrArg _ (funext fun a => Fin.ext ?_)
  match a with
  | ⟨0, _⟩ => show win0_1.index t (0 : Fin 2) * 8400 + 1 * k.val = k.val; omega
  | ⟨1, _⟩ => show win0_1.index t (1 : Fin 2) * 21 + 1 * o.val = o.val; omega

/-- The field's block at every point is the whole one-row array. -/
theorem field_block (c : Dev nD) (t : Fin cfg0.N) (o : Fin 21) :
    (iblk m c 2 t : Vec Ideal S1x21 .f32) (ix2 (0 : Fin 1) o) = (V m c main_v7 : S1x21.Idx → EReal) (ix2 (0 : Fin 1) o) := by
  obtain ⟨-, -, -, -, e4, e5, -⟩ := idx_facts t
  show V m c main_v7 (((cfg0.win 2).blk t).view.emb (ix2 (0 : Fin 1) o)) = V m c main_v7 (ix2 (0 : Fin 1) o)
  refine congrArg _ (funext fun a => Fin.ext ?_)
  match a with
  | ⟨0, _⟩ => show win0_2.index t (0 : Fin 2) * 1 + 1 * 0 = 0; omega
  | ⟨1, _⟩ => show win0_2.index t (1 : Fin 2) * 21 + 1 * o.val = o.val; omega

/-! ## What each point writes back, and the cover -/

/-- Point `t` writes back block `t` of `tiled` of the arrays as the region finds them. -/
theorem flushed_eq (c : Dev nD) (t : Fin cfg0.N) :
    (dats m 0 c).flushed 3 t
      = ((cfg0.win 3).blk t).view.read (Elt Ideal) (tiled (V m c main_v8) (V m c main_v4) (V m c main_v7)) := by
  rw [flushed3]
  unfold out0_3
  rw [View.canon_unit_zero hz]
  simp only [View.ld_unit_zero (S := S256x8400) hz, View.ld_unit_zero (S := S8400x21) hz, View.ld_unit_zero (S := S1x21) hz]
  obtain ⟨-, -, -, -, -, -, e6, e7⟩ := idx_facts t
  funext j
  obtain ⟨r, o, rfl⟩ : ∃ (r : Fin 256) (o : Fin 21), j = ix2 r o := ⟨j 0, j 1, eq_ix2 j⟩
  show k0_pay1 (F := Ideal) (iblk m c 0 t) (iblk m c 1 t) (iblk m c 2 t) (ix2 r o)
    = tiled (V m c main_v8) (V m c main_v4) (V m c main_v7) (((cfg0.win 3).blk t).view.emb (ix2 r o))
  refine payload_of_arrays _ _ _ _ _ _ _ r o (fun k => seq_block m c t r k _ ?_) (fun k o' => coup_block m c t k o')
    (fun o' => field_block m c t o') (Fin.ext ?_)
  · show win0_3.index t (0 : Fin 2) * 256 + 1 * r.val = t.val * 256 + r.val; omega
  · show o.val = win0_3.index t (1 : Fin 2) * 21 + 1 * o.val; omega

/-- An index of the result is in point `t`'s block iff each coordinate is in the block's range on its axis. -/
theorem mem_blk (t : Fin cfg0.N) (i : S4096x21.Idx) :
    i ∈ ((cfg0.win 3).blk t).view.set ↔ ∀ a : Fin 2, win0_3.index t a * S256x21.size a ≤ (i a).val ∧ (i a).val < win0_3.index t a * S256x21.size a + S256x21.size a := by
  show i ∈ ((View.whole main_v9).slice (win0_3.rect t)).set ↔ _
  rw [View.set_slice_whole, Rect.mem_set_unit]
  exact Iff.rfl

/-- Row `n` of the result lies in the block of point `n / 256`. -/
theorem cover (i : S4096x21.Idx) : ∃ t : Fin cfg0.N, (cfg0.win 3).flush t = true ∧ i ∈ ((cfg0.win 3).blk t).view.set := by
  have hi0 : (i 0).val < 4096 := (i 0).isLt
  have hi1 : (i 1).val < 21 := (i 1).isLt
  have hN : cfg0.N = 16 := N_0
  let t : Fin cfg0.N := ⟨(i 0).val / 256, by rw [hN]; omega⟩
  have ht : t.val = (i 0).val / 256 := rfl
  obtain ⟨-, -, -, -, -, -, e6, e7⟩ := idx_facts t
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 21 ≤ (i 1).val ∧ (i 1).val < win0_3.index t (1 : Fin 2) * 21 + 21; omega

/-- The result array after the run, in the tiles' spelling. -/
theorem final_tiled (c : Dev nD) : (dats m 0 c).arrAt 3 cfg0.N = tiled (V m c main_v8) (V m c main_v4) (V m c main_v7) :=
  (dats m 0 c).arrAt_eq_of_cover 3 _ (fun t _ => flushed_eq m c t) cover

end Cert.KernelIdeal.ArrayValue

end
-- ==== Proof.KernelResult.lean ====
/-
  The kernel's result as the site's conditional distribution, and its run.

  The arrays the region finds are the host's re-laid arguments: the sequences flattened to `[4096, 8400]`; site 400's
  couplings cut out of the coupling tensor and flattened to `[21, 8400]`, then transposed and changed in format; site
  400's field cut out as a vector, then viewed as one row. Transposition exchanges the two coordinates, the change of
  format is the identity on the extended reals, and the one-row view reads the vector; so the tiles' spelling of the
  result is `SiteSoftmax.siteProb` of the flattened sequences, the flattened couplings and the field's vector, up to
  the order of a sum's two terms and a product's two factors.
-/
import proofs.«164198_j74062416053356_1_alg».proof.Proof.KernelArray
import Idealize.ShloMosaic.Lib.StableHlo.Run

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.SiteSoftmax

variable (m : (ℓ : Loc nD τ sig) → Buf (Elt Ideal) ℓ) (ρ : Dev nD → PrngReg)

/-! ## The host's re-laid arguments -/

/-- The sequences flattened over (earlier site, symbol). -/
abbrev seqsOf (X : S4096x400x21.Idx → EReal) : S4096x8400.Idx → EReal :=
  shapeCast S4096x8400 X shapeCasts_S4096x400x21_S4096x8400

/-- Site 400's couplings to the 400 earlier sites, flattened over (earlier site, symbol). -/
abbrev coupOf (J : S512x21x512x21.Idx → EReal) : S21x8400.Idx → EReal :=
  shapeCast S21x8400 (shapeCast S21x400x21 (extractStridedSlice S1x21x400x21 ![400, 0, 0, 0] J
    slices_S512x21x512x21_S1x21x400x21_400_0_0_0) shapeCasts_S1x21x400x21_S21x400x21) shapeCasts_S21x400x21_S21x8400

/-- Site 400's field. -/
abbrev fieldOf (h : S512x21.Idx → EReal) : S21.Idx → EReal :=
  shapeCast S21 (extractStridedSlice S1x21 ![400, 0] h slices_S512x21_S1x21_400_0) shapeCasts_S1x21_S21

/-- The region finds the flattened sequences, -/
theorem seqs_entry (c : Dev nD) :
    (V m c main_v8 : S4096x8400.Idx → EReal) = seqsOf (m ((c : Thread nD τ).loc main_arg0)) := by
  dsimp only [V, hostOps0]; after_results; rfl

/-- the flattened couplings transposed (the change of format kept as printed), -/
theorem coup_entry (c : Dev nD) :
    (V m c main_v4 : S8400x21.Idx → EReal)
      = truncf (F := Ideal) .bf16 (transpose S8400x21 [1, 0] (coupOf (m ((c : Thread nD τ).loc main_arg2))) transposes_S21x8400_S8400x21_1_0)
          bitsLt_bf16_f32 := by
  dsimp only [V, hostOps0]; after_results; rfl

/-- and the field as one row. -/
theorem field_entry (c : Dev nD) :
    (V m c main_v7 : S1x21.Idx → EReal) = shapeCast S1x21 (fieldOf (m ((c : Thread nD τ).loc main_arg1))) shapeCasts_S21_S1x21 := by
  dsimp only [V, hostOps0]; after_results; rfl

/-! ## The tiles' spelling is the distribution -/

theorem tiled_apply (Xf : FVec Ideal S4096x8400 .f32) (JT : FVec Ideal S8400x21 .bf16) (hrow : FVec Ideal S1x21 .f32)
    (n : Fin 4096) (o : Fin 21) :
    tiled Xf JT hrow (ix2 n o)
      = rowSoftmax (fun o' => ((∑ k : Fin 8400, Xf (ix2 n k) * JT (ix2 k o')) + hrow (ix2 (0 : Fin 1) o')) * beta) o := rfl

/-- Over the transposed couplings and the field's row, the tiles' spelling is `siteProb` over the couplings and the field. -/
theorem tiled_eq_siteProb (Xf : S4096x8400.Idx → EReal) (Jr : S21x8400.Idx → EReal) (hv : S21.Idx → EReal)
    (ht : S21x8400.Transposes [1, 0] S8400x21) (hlt : FTy.bits .bf16 < FTy.bits .f32) (hc : S21.ShapeCasts S1x21) :
    tiled Xf (truncf (F := Ideal) .bf16 (transpose S8400x21 [1, 0] Jr ht) hlt) (shapeCast S1x21 hv hc) = siteProb Xf Jr hv := by
  funext i
  obtain ⟨n, o, rfl⟩ : ∃ (n : Fin 4096) (o : Fin 21), i = ix2 n o := ⟨i 0, i 1, eq_ix2 i⟩
  rw [tiled_apply, siteProb_apply]
  refine congrArg (fun f => rowSoftmax f o) (funext fun o' => ?_)
  rw [← logit_of_sum_add_mul, shapeCast_a_1a_apply]
  refine congrArg (fun s => (s + hv (ix1 o')) * beta) (Finset.sum_congr rfl fun k _ => ?_)
  rw [truncf_apply, transpose_ix2_apply]

/-- The result array after the run is the site's conditional distribution of the re-laid arguments. -/
theorem final_siteProb (c : Dev nD) :
    (dats m 0 c).arrAt 3 cfg0.N
      = siteProb (seqsOf (m ((c : Thread nD τ).loc main_arg0))) (coupOf (m ((c : Thread nD τ).loc main_arg2)))
          (fieldOf (m ((c : Thread nD τ).loc main_arg1))) := by
  rw [final_tiled, seqs_entry, coup_entry, field_entry]
  exact tiled_eq_siteProb _ _ _ _ _ _

/-! ## The run -/

/-- Every weakly fair execution of the kernel's program ends with the result array at the distribution, the arguments
    unchanged. -/
theorem run : θ_run defs (onTc (τ := τ) (main (F := Ideal))) ⟨m, fun _ => 0, ρ⟩ fun r => ∀ c : Dev nD,
      r.2.mem ((c : Thread nD τ).loc main_v9)
        = siteProb (seqsOf (m ((c : Thread nD τ).loc main_arg0))) (coupOf (m ((c : Thread nD τ).loc main_arg2)))
            (fieldOf (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_siteProb m c), (h c).2⟩) (run_blocks m ρ)

end Cert.KernelIdeal.ArrayValue

end
-- ==== Proof.ReferenceSide.lean ====
/-
  The reference computes the site's conditional distribution: its last stage, read index by index, is
  `SiteSoftmax.siteProb` of the flattened sequences, the coupling rows of site 400 and that site's field.

  Stage by stage at row `n`, symbol `o`: the scaled logit is the inverse temperature times (field plus the contraction
  over the 8400 pairs); the row maximum is the fold of `max` from `-∞` over the 21 symbols, once more against `-∞`; the
  exponentials of the shifted logits are summed from a zero initial value; the quotient is the result.
-/
import proofs.«164198_j74062416053356_1_alg».proof.Proof.Gen.ReferenceIdeal.Read
import proofs.«164198_j74062416053356_1_alg».proof.Proof.SiteSoftmax
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.SiteSoftmax

variable (x0 : (⟨S4096x400x21, .f32⟩ : BufTy).Contents (Elt Ideal)) (x1 : (⟨S512x21, .f32⟩ : BufTy).Contents (Elt Ideal))
  (x2 : (⟨S512x21x512x21, .f32⟩ : BufTy).Contents (Elt Ideal))

/-- The scaled logit stage at `(n, o)`: `β · (h o + ∑ k, X n k · J o k)`. -/
theorem scaled_apply (n : Fin 4096) (o : Fin 21) :
    val_main_v11 (F := Ideal) x0 x1 x2 (ix2 n o)
      = logit (val_main_v5 (F := Ideal) x0) (val_main_v2 (F := Ideal) x2) (val_main_v4 (F := Ideal) x1) n o := by
  have e1 : idx_main_v7 (idx_main_v8 (ix2 n o)) = ix1 o := funext fun a => Fin.ext (by match a with | ⟨0, _⟩ => rfl)
  have e2 : ∀ k, lidx_main_v6 (ix2 n o) k = ix2 n k := fun k =>
    funext fun a => Fin.ext (by match a with | ⟨0, _⟩ => rfl | ⟨1, _⟩ => rfl)
  have e3 : ∀ k, ridx_main_v6 (ix2 n o) k = ix2 o k := fun k =>
    funext fun a => Fin.ext (by match a with | ⟨0, _⟩ => rfl | ⟨1, _⟩ => rfl)
  rw [val_main_v11_apply, val_main_v10_apply, val_main_cst_apply, val_main_v9_apply, val_main_v8_apply, val_main_v7_apply,
    val_main_v6_apply]
  simp only [e1, e2, e3]
  rfl

/-- The row-maximum stage at `n`: the maximum of row `n`'s scaled logits, from `-∞`. -/
theorem rowmax_apply (n : Fin 4096) :
    val_main_v14 (F := Ideal) x0 x1 x2 (ix1 n) = rowMax fun o => val_main_v11 (F := Ideal) x0 x1 x2 (ix2 n o) := by
  rw [val_main_v14_apply, val_main_v13_apply, val_main_cst_1_apply]
  unfold val_main_v12
  rw [Host.reduce_eq_fold_single FloatOps.maximumf _ _ reducesTo_S4096x21_S4096_d1 (by decide : S4096x21.Reduces [1] S4096) h_S_ (ix1 n)]
  unfold rowMax
  refine congrArg (max negInf) ?_
  exact Finset.fold_congr fun k _ => congrArg (val_main_v11 (F := Ideal) x0 x1 x2)
    (funext fun a => Fin.ext (by match a with | ⟨0, _⟩ => rfl | ⟨1, _⟩ => rfl))

/-- The exponential stage at `(n, o)`: the scaled logit less its row's maximum, exponentiated. -/
theorem exp_apply (n : Fin 4096) (o : Fin 21) :
    val_main_v18 (F := Ideal) x0 x1 x2 (ix2 n o)
      = Ideal.exp (val_main_v11 (F := Ideal) x0 x1 x2 (ix2 n o) - val_main_v14 (F := Ideal) x0 x1 x2 (ix1 n)) := by
  have e : idx_main_v15 (idx_main_v16 (ix2 n o)) = ix1 n := funext fun a => Fin.ext (by match a with | ⟨0, _⟩ => rfl)
  rw [val_main_v18_apply, val_main_v17_apply, val_main_v16_apply, val_main_v15_apply, e]
  rfl

/-- The normalizer stage at `n`: the sum of row `n`'s exponentials (the initial value is zero). -/
theorem norm_apply (n : Fin 4096) :
    val_main_v19 (F := Ideal) x0 x1 x2 (ix1 n) = ∑ o : Fin 21, val_main_v18 (F := Ideal) x0 x1 x2 (ix2 n o) := by
  rw [val_main_v19_apply, val_main_cst_2_apply]
  have e : ∀ k, idx_main_v19 (ix1 n) k = ix2 n k := fun k =>
    funext fun a => Fin.ext (by match a with | ⟨0, _⟩ => rfl | ⟨1, _⟩ => rfl)
  simp only [e]
  show Ideal.ofBits .f32 0x00000000#32 + _ = _
  rw [Ideal.ofBits_zero_f32, zero_add]

/-- The last stage at `(n, o)`: the exponential over its row's normalizer. -/
theorem quot_apply (n : Fin 4096) (o : Fin 21) :
    val_main_v22 (F := Ideal) x0 x1 x2 (ix2 n o)
      = Ideal.div (val_main_v18 (F := Ideal) x0 x1 x2 (ix2 n o)) (val_main_v19 (F := Ideal) x0 x1 x2 (ix1 n)) := by
  have e : idx_main_v20 (idx_main_v21 (ix2 n o)) = ix1 n := funext fun a => Fin.ext (by match a with | ⟨0, _⟩ => rfl)
  rw [val_main_v22_apply, val_main_v21_apply, val_main_v20_apply, e]
  rfl

/-- The reference's result is the site's conditional distribution of its three intermediate arrays. -/
theorem result_eq :
    val_main_v22 (F := Ideal) x0 x1 x2
      = siteProb (val_main_v5 (F := Ideal) x0) (val_main_v2 (F := Ideal) x2) (val_main_v4 (F := Ideal) x1) := by
  funext i
  obtain ⟨n, o, rfl⟩ : ∃ (n : Fin 4096) (o : Fin 21), i = ix2 n o := ⟨i 0, i 1, eq_ix2 i⟩
  rw [siteProb_apply, quot_apply, norm_apply]
  simp only [exp_apply, rowmax_apply, scaled_apply]
  rfl

end Cert.ReferenceIdeal.RefValue

end
-- ==== Proof.lean ====
/-
  The certificate of the single-site conditional distribution of an autoregressive Potts model.

  Both programs compute, for each of 4096 sequences `n` and each of 21 symbols `o`, the softmax along `o` of the scaled
  logits `β · (h[400, o] + ∑ₖ X[n, k] · J[400, o, k])`, the sum over the `8400 = 400 · 21` (earlier site, symbol) pairs.
  The kernel streams the flattened sequences in 16 tiles of 256 rows, contracts each tile against the transposed
  couplings (changed in format, which is the identity on the extended reals), adds the field's row, scales, and
  takes the shifted softmax along the symbols; the reference contracts the flattened sequences against the flattened
  couplings, adds the field first and scales on the left, and takes the same shifted softmax. Read index by index both
  results are `SiteSoftmax.siteProb` of the same three re-laid arguments: the two spellings differ by the order of a
  sum's terms and a product's factors only, which commute on the extended reals, so the precondition is never opened.

  `SiteSoftmax`: the function. `ReferenceSide`: the reference's stages read at an index. `KernelTile`: one tile's
  payload at an index. `KernelArray`: the tiles cover the result. `KernelResult`: the host's re-laying of the
  arguments, and the kernel's run. Here: the five claims.
-/
import proofs.«164198_j74062416053356_1_alg».proof.Defs
import proofs.«164198_j74062416053356_1_alg».proof.Proof.Gen.Kernel
import proofs.«164198_j74062416053356_1_alg».proof.Proof.Gen.Kernel.Skeleton
import proofs.«164198_j74062416053356_1_alg».proof.Proof.Gen.Kernel.Launch
import proofs.«164198_j74062416053356_1_alg».proof.Proof.Gen.Kernel.Points
import proofs.«164198_j74062416053356_1_alg».proof.Proof.Gen.Kernel.Frame
import proofs.«164198_j74062416053356_1_alg».proof.Proof.Gen.KernelIdeal
import proofs.«164198_j74062416053356_1_alg».proof.Proof.Gen.KernelIdeal.Skeleton
import proofs.«164198_j74062416053356_1_alg».proof.Proof.Gen.KernelIdeal.Launch
import proofs.«164198_j74062416053356_1_alg».proof.Proof.Gen.KernelIdeal.Points
import proofs.«164198_j74062416053356_1_alg».proof.Proof.Gen.KernelIdeal.Frame
import proofs.«164198_j74062416053356_1_alg».proof.Proof.Gen.ReferenceIdeal
import proofs.«164198_j74062416053356_1_alg».proof.Proof.Gen.Pre_finite_inputs
import proofs.«164198_j74062416053356_1_alg».proof.Proof.Gen.KernelIdeal.Value
import proofs.«164198_j74062416053356_1_alg».proof.Proof.Gen.ReferenceIdeal.Run
import proofs.«164198_j74062416053356_1_alg».proof.Proof.Gen.ReferenceIdeal.Read
import proofs.«164198_j74062416053356_1_alg».proof.Proof.KernelResult
import proofs.«164198_j74062416053356_1_alg».proof.Proof.ReferenceSide
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the site's conditional distribution of the re-laid
    arguments: the kernel by its run over the tiles, the reference by its stages read at an index. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
